-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x1024 : Shape := ⟨3, ![8, 256, 1024]⟩
abbrev S8x65x320 : Shape := ⟨3, ![8, 65, 320]⟩
abbrev S1344x640 : Shape := ⟨2, ![1344, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S8x256x1024 : S_.BroadcastsInDim S8x256x1024 (![] : Fin 0 → Fin S8x256x1024.rank)
  reducesTo_S8x256x1024_S_d0_1_2 : S8x256x1024.ReducesTo [0, 1, 2] S_
  h_S_ : 0 < S_.numel
  bcast_S_S8x65x320 : S_.BroadcastsInDim S8x65x320 (![] : Fin 0 → Fin S8x65x320.rank)
  reducesTo_S8x65x320_S_d0_1_2 : S8x65x320.ReducesTo [0, 1, 2] S_
  bcast_S_S1344x640 : S_.BroadcastsInDim S1344x640 (![] : Fin 0 → Fin S1344x640.rank)
  reducesTo_S1344x640_S_d0_1 : S1344x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S640x1024 .f32) (main_arg5 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg4
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x256x1024 .f32) (main_arg1 : FVec F S8x65x320 .f32) (main_arg2 : FVec F S1344x640 .f32) (main_arg3 : FVec F S640 .f32) (main_arg4 : FVec F S640x1024 .f32) (main_arg5 : FVec F S1024 .f32) : IVec S_ 1 :=
  let main_v0 : FVec F S8x256x1024 .f32 := Host.absf main_arg0
  let main_cst : FVec F S_ .f32 := constant S_ .f32 0x7F800000#32
  let main_v1 : FVec F S8x256x1024 .f32 := broadcastInDim S8x256x1024 ![] bcast_S_S8x256x1024 main_cst
  let main_v2 : IVec S8x256x1024 1 := cmpf .olt main_v0 main_v1
  let main_c : IVec S_ 1 := constantI S_ 1 1#1
  let main_v3 : IVec S_ 1 := (fun x v => Host.reduce IntOp.andi x v reducesTo_S8x256x1024_S_d0_1_2 h_S_) main_v2 main_c
  let main_v4 : FVec F S8x65x320 .f32 := Host.absf main_arg1
  let main_cst_0 : FVec F S_ .f32 := constant S_ .f32 0x7F800000#32
  let main_v5 : FVec F S8x65x320 .f32 := broadcastInDim S8x65x320 ![] bcast_S_S8x65x320 main_cst_0
  let main_v6 : IVec S8x65x320 1 := cmpf .olt main_v4 main_v5
  let main_c_1 : IVec S_ 1 := constantI S_ 1 1#1
  let main_v7 : IVec S_ 1 := (fun x v => Host.reduce IntOp.andi x v reducesTo_S8x65x320_S_d0_1_2 h_S_) main_v6 main_c_1
  let main_v8 : IVec S_ 1 := andi main_v3 main_v7
  let main_v9 : FVec F S1344x640 .f32 := Host.absf main_arg2
  let main_cst_2 : FVec F S_ .f32 := constant S_ .f32 0x7F800000#32
  let main_v10 : FVec F S1344x640 .f32 := broadcastInDim S1344x640 ![] bcast_S_S1344x640 main_cst_2
  let main_v11 : IVec S1344x640 1 := cmpf .olt main_v9 main_v10
  let main_c_3 : IVec S_ 1 := constantI S_ 1 1#1
  let main_v12 : IVec S_ 1 := (fun x v => Host.reduce IntOp.andi x v reducesTo_S1344x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_v13 main_v16
-- ==== Kernel.lean ====
abbrev S8x256x1024 : Shape := ⟨3, ![8, 256, 1024]⟩
abbrev S8x65x320 : Shape := ⟨3, ![8, 65, 320]⟩
abbrev S1344x640 : Shape := ⟨2, ![1344, 640]⟩
abbrev S640 : Shape := ⟨1, ![640]⟩
abbrev S640x1024 : Shape := ⟨2, ![640, 1024]⟩
abbrev S1024 : Shape := ⟨1, ![1024]⟩
abbrev S1024x640 : Shape := ⟨2, ![1024, 640]⟩
abbrev S320x640 : Shape := ⟨2, ![320, 640]⟩
abbrev S8x256x65x1024 : Shape := ⟨4, ![8, 256, 65, 1024]⟩
abbrev S1x16x1024 : Shape := ⟨3, ![1, 16, 1024]⟩
abbrev S1x65x320 : Shape := ⟨3, ![1, 65, 320]⟩
abbrev S1x16x65x1024 : Shape := ⟨4, ![1, 16, 65, 1024]⟩
abbrev S65x640 : Shape := ⟨2, ![65, 640]⟩
abbrev S65x320 : Shape := ⟨2, ![65, 320]⟩
abbrev S16x1024 : Shape := ⟨2, ![16, 1024]⟩
abbrev S16x640 : Shape := ⟨2, ![16, 640]⟩
abbrev S16x1x640 : Shape := ⟨3, ![16, 1, 640]⟩
abbrev S1x65x640 : Shape := ⟨3, ![1, 65, 640]⟩
abbrev S16x65x640 : Shape := ⟨3, ![16, 65, 640]⟩
abbrev S1x1x640 : Shape := ⟨3, ![1, 1, 640]⟩
abbrev S1040x640 : Shape := ⟨2, ![1040, 640]⟩
abbrev S1040x1024 : Shape := ⟨2, ![1040, 1024]⟩
abbrev S1x1024 : Shape := ⟨2, ![1, 1024]⟩
abbrev S16x65x1024 : Shape := ⟨3, ![16, 65, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S8x65x320, .f32⟩
  | .hbm, ⟨2, _⟩ => ⟨S1344x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S1024x640, .f32⟩
  | .hbm, ⟨7, _⟩ => ⟨S320x640, .f32⟩
  | .hbm, ⟨8, _⟩ => ⟨S8x256x65x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x65x320, .f32⟩
  | .local _ .vmem, ⟨3, _⟩ => ⟨S1x65x320, .f32⟩
  | .local _ .vmem, ⟨4, _⟩ => ⟨S1024x640, .f32⟩
  | .local _ .vmem, ⟨5, _⟩ => ⟨S320x640, .f32⟩
  | .local _ .vmem, ⟨6, _⟩ => ⟨S640, .f32⟩
  | .local _ .vmem, ⟨7, _⟩ => ⟨S640x1024, .f32⟩
  | .local _ .vmem, ⟨8, _⟩ => ⟨S1024, .f32⟩
  | .local _ .vmem, ⟨9, _⟩ => ⟨S1x16x65x1024, .f32⟩
  | .local _ .vmem, ⟨10, _⟩ => ⟨S1x16x65x1024, .f32⟩
  | .local _ .vmem, ⟨11, _⟩ => ⟨S65x640, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S320x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x65x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S1344x640_S1024x640_0_0 : S1344x640.Slices ![0, 0] S1024x640
  slices_S1344x640_S320x640_1024_0 : S1344x640.Slices ![1024, 0] S320x640
  inb_S1x65x320_S1x65x320_0_0_0 : ∀ a, (![0, 0, 0] : Fin 3 → Nat) a + S1x65x320.size a ≤ S1x65x320.size a
  h_S1x65x320 : 0 < S1x65x320.numel
  shapeCasts_S1x65x320_S65x320 : S1x65x320.ShapeCasts S65x320
  bitsLt_bf16_f32 : FTy.bits .bf16 < FTy.bits .f32
  inb_S320x640_S320x640_0_0 : ∀ a, (![0, 0] : Fin 2 → Nat) a + S320x640.size a ≤ S320x640.size a
  h_S320x640 : 0 < S320x640.numel
  shapeCasts_S320x640_S320x640 : S320x640.ShapeCasts S320x640
  inb_S65x640_S65x640_0_0 : ∀ a, (![0, 0] : Fin 2 → Nat) a + S65x640.size a ≤ S65x640.size a
  h_S65x640 : 0 < S65x640.numel
  shapeCasts_S65x640_S65x640 : S65x640.ShapeCasts S65x640
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  inb_S640_S640_0 : ∀ a, (![0] : Fin 1 → Nat) a + S640.size a ≤ S640.size a
  h_S640 : 0 < S640.numel
  shapeCasts_S16x640_S16x1x640 : S16x640.ShapeCasts S16x1x640
  shapeCasts_S65x640_S1x65x640 : S65x640.ShapeCasts S1x65x640
  broadcasts_S16x1x640_S16x65x640 : S16x1x640.Broadcasts S16x65x640
  broadcasts_S1x65x640_S16x65x640 : S1x65x640.Broadcasts S16x65x640
  shapeCasts_S640_S1x1x640 : S640.ShapeCasts S1x1x640
  broadcasts_S1x1x640_S16x65x640 : S1x1x640.Broadcasts S16x65x640
  shapeCasts_S16x65x640_S1040x640 : S16x65x640.ShapeCasts S1040x640
  inb_S640x1024_S640x1024_0_0 : ∀ a, (![0, 0] : Fin 2 → Nat) a + S640x1024.size a ≤ S640x1024.size a
  h_S640x1024 : 0 < S640x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1040x1024 : S1x1024.Broadcasts S1040x1024
  shapeCasts_S1040x1024_S16x65x1024 : S1040x1024.ShapeCasts S16x65x1024
  inb_S1x16x65x1024_S1x16x65x1024_0_0_0_0 : ∀ a, (![0, 0, 0, 0] : Fin 4 → Nat) a + S1x16x65x1024.size a ≤ S1x16x65x1024.size a
  h_S1x16x65x1024 : 0 < S1x16x65x1024.numel
  shapeCasts_S1x16x65x1024_S16x65x1024 : S1x16x65x1024.ShapeCasts S16x65x1024
  shapeCasts_S16x65x1024_S1x16x65x1024 : S16x65x1024.ShapeCasts S1x16x65x1024
  dot_S65x320_S320x640_S65x640_1_0_0_1_n_n_wf : DotDims.WF S65x320 S320x640 S65x640 [1] [0] [0] [1] [] []
  dot_S16x1024_S1024x640_S16x640_1_0_0_1_n_n_wf : DotDims.WF S16x1024 S1024x640 S16x640 [1] [0] [0] [1] [] []
  dot_S1040x640_S640x1024_S1040x1024_1_0_0_1_n_n_wf : DotDims.WF S1040x640 S640x1024 S1040x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1024.size a ≤ S8x256x1024.size a
  hwx0_0 : ∀ i : grid0.Coords, EltTy.bits .f32 = 32 ∨ (Rect.block (s := S8x256x1024) S1x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65x320.size a ≤ S8x65x320.size a
  hwx0_1 : ∀ i : grid0.Coords, EltTy.bits .f32 = 32 ∨ (Rect.block (s := S8x65x320) S1x65x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x640.size a ≤ S1024x640.size a
  hwx0_2 : ∀ i : grid0.Coords, EltTy.bits .f32 = 32 ∨ (Rect.block (s := S1024x640) S1024x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x640.size a ≤ S320x640.size a
  hwx0_3 : ∀ i : grid0.Coords, EltTy.bits .f32 = 32 ∨ (Rect.block (s := S320x640) S320x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640.size a ≤ S640.size a
  hwx0_4 : ∀ i : grid0.Coords, EltTy.bits .f32 = 32 ∨ (Rect.block (s := S640) S640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x1024.size a ≤ S640x1024.size a
  hwx0_5 : ∀ i : grid0.Coords, EltTy.bits .f32 = 32 ∨ (Rect.block (s := S640x1024) S640x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x65x1024.size a ≤ S8x256x65x1024.size a
  hwx0_7 : ∀ i : grid0.Coords, EltTy.bits .f32 = 32 ∨ (Rect.block (s := S8x256x65x1024) S1x16x65x1024.size (cc0_transform_7 i) (hinb0_7 i)).WholeWords (EltTy.packing .f32)

variable [Facts₀]

def dot_S65x320_S320x640_S65x640_1_0_0_1_n_n : DotDims S65x320 S320x640 S65x640 where
  lhsContracting := [1]
  rhsContracting := [0]
  lhsNonContracting := [0]
  rhsNonContracting := [1]
  lhsBatch := []
  rhsBatch := []
  wf := dot_S65x320_S320x640_S65x640_1_0_0_1_n_n_wf
def dot_S16x1024_S1024x640_S16x640_1_0_0_1_n_n : DotDims S16x1024 S1024x640 S16x640 where
  lhsContracting := [1]
  rhsContracting := [0]
  lhsNonContracting := [0]
  rhsNonContracting := [1]
  lhsBatch := []
  rhsBatch := []
  wf := dot_S16x1024_S1024x640_S16x640_1_0_0_1_n_n_wf
def dot_S1040x640_S640x1024_S1040x1024_1_0_0_1_n_n : DotDims S1040x640 S640x1024 S1040x1024 where
  lhsContracting := [1]
  rhsContracting := [0]
  lhsNonContracting := [0]
  rhsNonContracting := [1]
  lhsBatch := []
  rhsBatch := []
  wf := dot_S1040x640_S640x1024_S1040x1024_1_0_0_1_n_n_wf

abbrev win0_0 : Pipeline.Window sig grid0 :=
  Pipeline.Window.ofSpec (Memref.whole main_arg0) S1x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x65x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S320x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S640x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x16x65x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x1024 : Shape := ⟨3, ![8, 256, 1024]⟩
abbrev S8x65x320 : Shape := ⟨3, ![8, 65, 320]⟩
abbrev S1344x640 : Shape := ⟨2, ![1344, 640]⟩
abbrev S640 : Shape := ⟨1, ![640]⟩
abbrev S640x1024 : Shape := ⟨2, ![640, 1024]⟩
abbrev S1024 : Shape := ⟨1, ![1024]⟩
abbrev S1024x640 : Shape := ⟨2, ![1024, 640]⟩
abbrev S320x640 : Shape := ⟨2, ![320, 640]⟩
abbrev S8x256x640 : Shape := ⟨3, ![8, 256, 640]⟩
abbrev S8x65x640 : Shape := ⟨3, ![8, 65, 640]⟩
abbrev S8x256x1x640 : Shape := ⟨4, ![8, 256, 1, 640]⟩
abbrev S8x1x65x640 : Shape := ⟨4, ![8, 1, 65, 640]⟩
abbrev S8x256x65x640 : Shape := ⟨4, ![8, 256, 65, 640]⟩
abbrev S1x1x1x640 : Shape := ⟨4, ![1, 1, 1, 640]⟩
abbrev S_ : Shape := ⟨0, ![]⟩
abbrev S8x256x65x1024 : Shape := ⟨4, ![8, 256, 65, 1024]⟩
abbrev S1x1x1x1024 : Shape := ⟨4, ![1, 1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x65x320, .f32⟩
  | .hbm, ⟨2, _⟩ => ⟨S1344x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S1024x640, .f32⟩
  | .hbm, ⟨7, _⟩ => ⟨S320x640, .f32⟩
  | .hbm, ⟨8, _⟩ => ⟨S8x256x640, .f32⟩
  | .hbm, ⟨9, _⟩ => ⟨S8x65x640, .f32⟩
  | .hbm, ⟨10, _⟩ => ⟨S8x256x1x640, .f32⟩
  | .hbm, ⟨11, _⟩ => ⟨S8x1x65x640, .f32⟩
  | .hbm, ⟨12, _⟩ => ⟨S8x256x65x640, .f32⟩
  | .hbm, ⟨13, _⟩ => ⟨S8x256x65x640, .f32⟩
  | .hbm, ⟨14, _⟩ => ⟨S8x256x65x640, .f32⟩
  | .hbm, ⟨15, _⟩ => ⟨S1x1x1x640, .f32⟩
  | .hbm, ⟨16, _⟩ => ⟨S8x256x65x640, .f32⟩
  | .hbm, ⟨17, _⟩ => ⟨S8x256x65x640, .f32⟩
  | .hbm, ⟨18, _⟩ => ⟨S_, .f32⟩
  | .hbm, ⟨19, _⟩ => ⟨S8x256x65x640, .f32⟩
  | .hbm, ⟨20, _⟩ => ⟨S8x256x65x640, .f32⟩
  | .hbm, ⟨21, _⟩ => ⟨S8x256x65x1024, .f32⟩
  | .hbm, ⟨22, _⟩ => ⟨S1x1x1x1024, .f32⟩
  | .hbm, ⟨23, _⟩ => ⟨S8x256x65x1024, .f32⟩
  | .hbm, ⟨24, _⟩ => ⟨S8x256x65x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  slices_S1344x640_S1024x640_0_0 : S1344x640.Slices ![0, 0] S1024x640
  slices_S1344x640_S320x640_1024_0 : S1344x640.Slices ![1024, 0] S320x640
  bcast_S8x256x640_S8x256x1x640_0_1_3 : S8x256x640.BroadcastsInDim S8x256x1x640 (![0, 1, 3] : Fin 3 → Fin S8x256x1x640.rank)
  bcast_S8x65x640_S8x1x65x640_0_2_3 : S8x65x640.BroadcastsInDim S8x1x65x640 (![0, 2, 3] : Fin 3 → Fin S8x1x65x640.rank)
  bcast_S8x256x1x640_S8x256x65x640_0_1_2_3 : S8x256x1x640.BroadcastsInDim S8x256x65x640 (![0, 1, 2, 3] : Fin 4 → Fin S8x256x65x640.rank)
  bcast_S8x1x65x640_S8x256x65x640_0_1_2_3 : S8x1x65x640.BroadcastsInDim S8x256x65x640 (![0, 1, 2, 3] : Fin 4 → Fin S8x256x65x640.rank)
  bcast_S640_S1x1x1x640_3 : S640.BroadcastsInDim S1x1x1x640 (![3] : Fin 1 → Fin S1x1x1x640.rank)
  bcast_S1x1x1x640_S8x256x65x640_0_1_2_3 : S1x1x1x640.BroadcastsInDim S8x256x65x640 (![0, 1, 2, 3] : Fin 4 → Fin S8x256x65x640.rank)
  bcast_S_S8x256x65x640 : S_.BroadcastsInDim S8x256x65x640 (![] : Fin 0 → Fin S8x256x65x640.rank)
  bcast_S1024_S1x1x1x1024_3 : S1024.BroadcastsInDim S1x1x1x1024 (![3] : Fin 1 → Fin S1x1x1x1024.rank)
  bcast_S1x1x1x1024_S8x256x65x1024_0_1_2_3 : S1x1x1x1024.BroadcastsInDim S8x256x65x1024 (![0, 1, 2, 3] : Fin 4 → Fin S8x256x65x1024.rank)
  dot_S8x256x1024_S1024x640_S8x256x640_2_0_01_1_n_n_wf : DotDims.WF S8x256x1024 S1024x640 S8x256x640 [2] [0] [0, 1] [1] [] []
  dot_S8x65x320_S320x640_S8x65x640_2_0_01_1_n_n_wf : DotDims.WF S8x65x320 S320x640 S8x65x640 [2] [0] [0, 1] [1] [] []
  dot_S8x256x65x640_S640x1024_S8x256x65x1024_3_0_012_1_n_n_wf : DotDims.WF S8x256x65x640 S640x1024 S8x256x65x1024 [3] [0] [0, 1, 2] [1] [] []

variable [Facts₀]

def dot_S8x256x1024_S1024x640_S8x256x640_2_0_01_1_n_n : DotDims S8x256x1024 S1024x640 S8x256x640 where
  lhsContracting := [2]
  rhsContracting := [0]
  lhsNonContracting := [0, 1]
  rhsNonContracting := [1]
  lhsBatch := []
  rhsBatch := []
  wf := dot_S8x256x1024_S1024x640_S8x256x640_2_0_01_1_n_n_wf
def dot_S8x65x320_S320x640_S8x65x640_2_0_01_1_n_n : DotDims S8x65x320 S320x640 S8x65x640 where
  lhsContracting := [2]
  rhsContracting := [0]
  lhsNonContracting := [0, 1]
  rhsNonContracting := [1]
  lhsBatch := []
  rhsBatch := []
  wf := dot_S8x65x320_S320x640_S8x65x640_2_0_01_1_n_n_wf
def dot_S8x256x65x640_S640x1024_S8x256x65x1024_3_0_012_1_n_n : DotDims S8x256x65x640 S640x1024 S8x256x65x1024 where
  lhsContracting := [3]
  rhsContracting := [0]
  lhsNonContracting := [0, 1, 2]
  rhsNonContracting := [1]
  lhsBatch := []
  rhsBatch := []
  wf := dot_S8x256x65x640_S640x1024_S8x256x65x1024_3_0_012_1_n_n_wf

class Facts : Prop extends Facts₀ where

variable [Facts]
-- ==== Proof.JointSpec.lean ====
/-
  The joint network of a transducer, entry by entry, over the extended reals.

  For a batch entry b, an encoder frame t, a prediction step u and a vocabulary entry k the network returns

      (sum over j of relu(enc(b,t,j) + pred(b,u,j) + b1(j)) * W2(j,k)) + b2(k),

  where the 1344 rows of W1 are split between the two inputs: enc(b,t,j) = sum over h < 1024 of f(b,t,h) * W1(h,j)
  uses the first 1024 rows, and pred(b,u,j) = sum over h < 320 of g(b,u,h) * W1(1024 + h,j) the last 320. The two
  projections are added in this order, the bias after them, and relu is the maximum with zero.
-/
import Idealize.ShloMosaic.PureOps.Ideal.Laws
import Idealize.ShloMosaic.Lib.ValueIdx

noncomputable section

open scoped BigOperators
open Idealize.ShloMosaic Idealize.ShloMosaic.ValueIdx

namespace Cert.Joint

/-- Row `h` of the encoder half of W1: its first 1024 rows. -/
abbrev encRow (h : Fin 1024) : Fin 1344 := ⟨h.val, by have := h.isLt; omega⟩

/-- Row `h` of the prediction half of W1: its last 320 rows. -/
abbrev predRow (h : Fin 320) : Fin 1344 := ⟨1024 + h.val, by have := h.isLt; omega⟩

/-- Frame `t` of the tile `tt` of sixteen encoder frames. -/
abbrev frameOf (tt : Fin 16) (t' : Fin 16) : Fin 256 := ⟨16 * tt.val + t'.val, by have := tt.isLt; have := t'.isLt; omega⟩

/-- The encoder projection: frame (b, t) of `f` against the encoder half of W1. -/
def enc (f : FVec Ideal ⟨3, ![8, 256, 1024]⟩ .f32) (W1 : FVec Ideal ⟨2, ![1344, 640]⟩ .f32)
    (b : Fin 8) (t : Fin 256) (j : Fin 640) : EReal :=
  ∑ h : Fin 1024, f (ix3 b t h) * W1 (ix2 (encRow h) j)

/-- The prediction projection: step (b, u) of `g` against the prediction half of W1. -/
def pred (g : FVec Ideal ⟨3, ![8, 65, 320]⟩ .f32) (W1 : FVec Ideal ⟨2, ![1344, 640]⟩ .f32)
    (b : Fin 8) (u : Fin 65) (j : Fin 640) : EReal :=
  ∑ h : Fin 320, g (ix3 b u h) * W1 (ix2 (predRow h) j)

/-- The hidden unit j at (b, t, u): relu of the two projections and the bias, added in that order. -/
def hidden (f : FVec Ideal ⟨3, ![8, 256, 1024]⟩ .f32) (g : FVec Ideal ⟨3, ![8, 65, 320]⟩ .f32)
    (W1 : FVec Ideal ⟨2, ![1344, 640]⟩ .f32) (b1 : FVec Ideal ⟨1, ![640]⟩ .f32)
    (b : Fin 8) (t : Fin 256) (u : Fin 65) (j : Fin 640) : EReal :=
  max ((enc f W1 b t j + pred g W1 b u j) + b1 (ix1 j)) (Ideal.ofBits .f32 0x00000000#32)

/-- The logit k at (b, t, u): the hidden units against column k of W2, plus the output bias. -/
def logitAt (f : FVec Ideal ⟨3, ![8, 256, 1024]⟩ .f32) (g : FVec Ideal ⟨3, ![8, 65, 320]⟩ .f32)
    (W1 : FVec Ideal ⟨2, ![1344, 640]⟩ .f32) (b1 : FVec Ideal ⟨1, ![640]⟩ .f32)
    (W2 : FVec Ideal ⟨2, ![640, 1024]⟩ .f32) (b2 : FVec Ideal ⟨1, ![1024]⟩ .f32)
    (b : Fin 8) (t : Fin 256) (u : Fin 65) (k : Fin 1024) : EReal :=
  (∑ j : Fin 640, hidden f g W1 b1 b t u j * W2 (ix2 j k)) + b2 (ix1 k)

/-- The whole result array. -/
def logits (f : FVec Ideal ⟨3, ![8, 256, 1024]⟩ .f32) (g : FVec Ideal ⟨3, ![8, 65, 320]⟩ .f32)
    (W1 : FVec Ideal ⟨2, ![1344, 640]⟩ .f32) (b1 : FVec Ideal ⟨1, ![640]⟩ .f32)
    (W2 : FVec Ideal ⟨2, ![640, 1024]⟩ .f32) (b2 : FVec Ideal ⟨1, ![1024]⟩ .f32) :
    FVec Ideal ⟨4, ![8, 256, 65, 1024]⟩ .f32 :=
  fun i => logitAt f g W1 b1 W2 b2 (i 0) (i 1) (i 2) (i 3)

theorem logits_apply (f : FVec Ideal ⟨3, ![8, 256, 1024]⟩ .f32) (g : FVec Ideal ⟨3, ![8, 65, 320]⟩ .f32)
    (W1 : FVec Ideal ⟨2, ![1344, 640]⟩ .f32) (b1 : FVec Ideal ⟨1, ![640]⟩ .f32)
    (W2 : FVec Ideal ⟨2, ![640, 1024]⟩ .f32) (b2 : FVec Ideal ⟨1, ![1024]⟩ .f32)
    (b : Fin 8) (t : Fin 256) (u : Fin 65) (k : Fin 1024) :
    logits f g W1 b1 W2 b2 (ix4 b t u k) = logitAt f g W1 b1 W2 b2 b t u k := rfl

end Cert.Joint

end
-- ==== Proof.JointPieces.lean ====
/-
  What one run of the kernel's body leaves behind, as values of the blocks it was given.

  The body has two cases. At the first tile of a batch entry it first overwrites its scratch with the prediction
  projection of that entry, then reads the scratch back and stores the output block computed from it: the scratch ends at
  the projection, and the output block is the one computed from the projection just stored. At every other tile it stores
  nothing into the scratch and computes the output block from what the scratch already held. In both cases each buffer
  is written by one store through its whole rectangle, so what the buffer holds afterwards is that store's value, and each
  load through a whole rectangle reads the buffer's contents.
-/
import proofs.«116999_j28862180229192_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rectangle of rank one to four, as the constant zero. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At the first tile of a batch entry the scratch ends at the prediction projection of the entry's block. -/
theorem scratch_first (c : Dev nD) (i : grid0.Coords) (arg2 : Memref sig .tc .vmem S1x16x1024 .f32) (harg2 : arg2.IsWhole) (arg3 : Memref sig .tc .vmem S1x65x320 .f32) (harg3 : arg3.IsWhole) (arg4 : Memref sig .tc .vmem S1024x640 .f32) (harg4 : arg4.IsWhole) (arg5 : Memref sig .tc .vmem S320x640 .f32) (harg5 : arg5.IsWhole) (arg6 : Memref sig .tc .vmem S640 .f32) (harg6 : arg6.IsWhole) (arg7 : Memref sig .tc .vmem S640x1024 .f32) (harg7 : arg7.IsWhole) (arg8 : Memref sig .tc .vmem S1024 .f32) (harg8 : arg8.IsWhole) (arg9 : Memref sig .tc .vmem S1x16x65x1024 .f32) (harg9 : arg9.IsWhole) (arg10 : Memref sig .tc .vmem S65x640 .f32) (harg10 : arg10.IsWhole) (hc0 : cond0_0 i) (x0 : Vec F S1x16x1024 .f32) (x1 : Vec F S1x65x320 .f32) (x2 : Vec F S1024x640 .f32) (x3 : Vec F S320x640 .f32) (x4 : Vec F S640 .f32) (x5 : Vec F S640x1024 .f32) (x6 : Vec F S1024 .f32) :
    sout0_A_0 c i arg2 harg2 arg3 harg3 arg4 harg4 arg5 harg5 arg6 harg6 arg7 harg7 arg8 harg8 arg9 harg9 arg10 harg10 hc0 x0 x1 x2 x3 x4 x5 x6 = k0_pay1 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S65x640) hz2]
  simp only [View.readAt_eq_ld, harg3.read_unread, harg5.read_unread, View.ld_unit_zero (S := S1x65x320) hz3,
    View.ld_unit_zero (S := S320x640) hz2]

/-- At the first tile of a batch entry the output block is computed from the projection the same run stored. -/
theorem block_first (c : Dev nD) (i : grid0.Coords) (arg2 : Memref sig .tc .vmem S1x16x1024 .f32) (harg2 : arg2.IsWhole) (arg3 : Memref sig .tc .vmem S1x65x320 .f32) (harg3 : arg3.IsWhole) (arg4 : Memref sig .tc .vmem S1024x640 .f32) (harg4 : arg4.IsWhole) (arg5 : Memref sig .tc .vmem S320x640 .f32) (harg5 : arg5.IsWhole) (arg6 : Memref sig .tc .vmem S640 .f32) (harg6 : arg6.IsWhole) (arg7 : Memref sig .tc .vmem S640x1024 .f32) (harg7 : arg7.IsWhole) (arg8 : Memref sig .tc .vmem S1024 .f32) (harg8 : arg8.IsWhole) (arg9 : Memref sig .tc .vmem S1x16x65x1024 .f32) (harg9 : arg9.IsWhole) (arg10 : Memref sig .tc .vmem S65x640 .f32) (harg10 : arg10.IsWhole) (hc0 : cond0_0 i) (x0 : Vec F S1x16x1024 .f32) (x1 : Vec F S1x65x320 .f32) (x2 : Vec F S1024x640 .f32) (x3 : Vec F S320x640 .f32) (x4 : Vec F S640 .f32) (x5 : Vec F S640x1024 .f32) (x6 : Vec F S1024 .f32) :
    out0_A_7 c i arg2 harg2 arg3 harg3 arg4 harg4 arg5 harg5 arg6 harg6 arg7 harg7 arg8 harg8 arg9 harg9 arg10 harg10 hc0 x0 x1 x2 x3 x4 x5 x6 = k0_pay2 x0 x2 (k0_pay1 x1 x3) x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S1x16x65x1024) hz4]
  simp only [View.readAt_eq_ld, harg2.read_unread, harg3.read_unread, harg4.read_unread, harg5.read_unread,
    harg6.read_unread, harg7.read_unread, harg8.read_unread, View.readCov_unit_zero (S := S65x640) _ hz2,
    View.ld_unit_zero (S := S1x16x1024) hz3, View.ld_unit_zero (S := S1x65x320) hz3,
    View.ld_unit_zero (S := S1024x640) hz2, View.ld_unit_zero (S := S320x640) hz2, View.ld_unit_zero (S := S640) hz1,
    View.ld_unit_zero (S := S640x1024) hz2, View.ld_unit_zero (S := S1024) hz1]

/-- At any other tile the output block is computed from what the scratch held when the run began. -/
theorem block_later (c : Dev nD) (i : grid0.Coords) (arg2 : Memref sig .tc .vmem S1x16x1024 .f32) (harg2 : arg2.IsWhole) (arg3 : Memref sig .tc .vmem S1x65x320 .f32) (harg3 : arg3.IsWhole) (arg4 : Memref sig .tc .vmem S1024x640 .f32) (harg4 : arg4.IsWhole) (arg5 : Memref sig .tc .vmem S320x640 .f32) (harg5 : arg5.IsWhole) (arg6 : Memref sig .tc .vmem S640 .f32) (harg6 : arg6.IsWhole) (arg7 : Memref sig .tc .vmem S640x1024 .f32) (harg7 : arg7.IsWhole) (arg8 : Memref sig .tc .vmem S1024 .f32) (harg8 : arg8.IsWhole) (arg9 : Memref sig .tc .vmem S1x16x65x1024 .f32) (harg9 : arg9.IsWhole) (arg10 : Memref sig .tc .vmem S65x640 .f32) (harg10 : arg10.IsWhole) (hc0 : ¬cond0_0 i) (x0 : Vec F S1x16x1024 .f32) (x1 : Vec F S1x65x320 .f32) (x2 : Vec F S1024x640 .f32) (x3 : Vec F S320x640 .f32) (x4 : Vec F S640 .f32) (x5 : Vec F S640x1024 .f32) (x6 : Vec F S1024 .f32) (xs0 : Vec F S65x640 .f32) :
    out0_B_7 c i arg2 harg2 arg3 harg3 arg4 harg4 arg5 harg5 arg6 harg6 arg7 harg7 arg8 harg8 arg9 harg9 arg10 harg10 hc0 x0 x1 x2 x3 x4 x5 x6 xs0 = k0_pay2 x0 x2 xs0 x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero (S := S1x16x65x1024) hz4]
  simp only [View.readAt_eq_ld, harg2.read_unread, harg4.read_unread, harg6.read_unread, harg7.read_unread,
    harg8.read_unread, harg10.read_unread, View.ld_unit_zero (S := S1x16x1024) hz3,
    View.ld_unit_zero (S := S1024x640) hz2, View.ld_unit_zero (S := S65x640) hz2, View.ld_unit_zero (S := S640) hz1,
    View.ld_unit_zero (S := S640x1024) hz2, View.ld_unit_zero (S := S1024) hz1]

end Cert.KernelIdeal.Pieces

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.LibRowsLayout.lean ====
/-
  Layout operations of small rank read at one entry, for any extents and any element type.

  A shape cast keeps the row-major position of every entry, so
  * a matrix [a, b] cast to [a, 1, b] reads, at (i, 0, j), the matrix at (i, j);
  * a vector [a] cast to [1, 1, a] reads, at (0, 0, i), the vector at i;
  * a stack [a, b, c] cast to the matrix [n, c] whose rows are the pairs (i, j) in row-major order reads, at
    (r, k) with r = i * b + j, the stack at (i, j, k) — and the cast back reads the matrix at that row.
  A broadcast reads the operand at the same coordinates, with 0 on the operand's axes of extent one, so an array
  [a, 1, c], [1, b, c] or [1, 1, c] spread to [a, b, c] reads, at (i, j, k), the operand at (i, 0, k), (0, j, k)
  or (0, 0, k).
-/
import Idealize.ShloMosaic.Lib.ValueIdx
import Idealize.ShloMosaic.Lib.Pipeline.Value

noncomputable section

open Idealize.ShloMosaic Idealize.ShloMosaic.ValueIdx

namespace Cert.Lib.RowsLayout

variable {α : Type}

/-- A matrix [a, b] cast to [a, 1, b] reads, at (i, u, j), the matrix at (i, j), whatever the unit coordinate u. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector [a] cast to [1, 1, a] reads, at (u, v, i), the vector at i, whatever the unit coordinates. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add, Nat.mul_one, Nat.add_zero])

/-- A stack [a, b, c] cast to a matrix [n, c] reads, at (r, k) with r = i * b + j, the stack at (i, j, k). -/
theorem shapeCast_abc_rc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- A matrix [n, c] cast to a stack [a, b, c] reads, at (i, j, k), the matrix at (r, k) with r = i * b + j. -/
theorem shapeCast_rc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- An array [a, 1, c] spread to [a, b, c] reads, at (i, j, k), the operand at (i, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An array [1, b, c] spread to [a, b, c] reads, at (i, j, k), the operand at (0, j, k). -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An array [1, 1, c] spread to [a, b, c] reads, at (i, j, k), the operand at (0, 0, k). -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Lib.RowsLayout

end
-- ==== Proof.JointStored.lean ====
/-
  The two values the kernel's body stores, read at one entry, at the ideal values (every float an extended real, every
  operation exact, a change of float format the identity).

  The first is what the body puts in its scratch at the first tile of a batch entry: the block of sixty-five prediction
  steps times the prediction half of W1, a [65, 320] by [320, 640] product into zero, whose entry (u, j) is the sum over
  h of the block's (u, h) times the weight's (h, j).

  The second is the output block of a tile of sixteen frames. The frames' projection hf (a [16, 1024] by [1024, 640]
  product into zero) is spread over the sixty-five steps, the scratch over the sixteen frames, the bias over both; their
  sum, in that order, is cut at zero from below; the [16, 65, 640] result is laid out as the [1040, 640] matrix whose
  row 65 t + u is the pair (t, u), multiplied into zero with W2, the output bias added to every row, and the [1040, 1024]
  product laid back as [16, 65, 1024]. So its entry (t, u, k) is

      (sum over j of max ((hf (t, j) + scratch (u, j)) + b1 (j)) 0 * W2 (j, k)) + b2 (k).
-/
import proofs.«116999_j28862180229192_1_alg».proof.Proof.Gen.KernelIdeal.Skeleton
import proofs.«116999_j28862180229192_1_alg».proof.Proof.LibPlainMatmul
import proofs.«116999_j28862180229192_1_alg».proof.Proof.LibRowsLayout
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Stored

open Cert.KernelIdeal Cert.KernelIdeal.Gen Cert.Lib

/-- The row of the pair (t, u) among the sixteen-by-sixty-five pairs in row-major order. -/
abbrev pairRow (t : Fin 16) (u : Fin 65) : Fin 1040 :=
  ⟨t.val * 65 + u.val, by have := t.isLt; have := u.isLt; omega⟩

/-- What the body stores in its scratch, at (u, j): the prediction block's row u against column j of the weight. -/
theorem scratchStored_apply (x1 : FVec Ideal S1x65x320 .f32) (x3 : FVec Ideal S320x640 .f32) (u : Fin 65) (j : Fin 640) :
    k0_pay1 (F := Ideal) x1 x3 (ix2 u j) = ∑ h : Fin 320, x1 (ix3 (0 : Fin 1) u h) * x3 (ix2 h j) := by
  unfold k0_pay1
  rw [shapeCast_self]
  refine (PlainMatmul.apply dot_S65x320_S320x640_S65x640_1_0_0_1_n_n rfl rfl rfl rfl rfl rfl none _ _ u j).trans ?_
  refine Finset.sum_congr rfl fun h _ => ?_
  rw [truncf_apply, truncf_apply, shapeCast_self, shapeCast_1ab_ab_apply]

/-- What the body stores in the output block, at (0, t, u, k). -/
theorem blockStored_apply (x0 : FVec Ideal S1x16x1024 .f32) (x2 : FVec Ideal S1024x640 .f32)
    (xs : FVec Ideal S65x640 .f32) (x4 : FVec Ideal S640 .f32) (x5 : FVec Ideal S640x1024 .f32)
    (x6 : FVec Ideal S1024 .f32) (t : Fin 16) (u : Fin 65) (k : Fin 1024) :
    k0_pay2 (F := Ideal) x0 x2 xs x4 x5 x6 (ix4 (0 : Fin 1) t u k)
      = (∑ j : Fin 640,
          max (((∑ h : Fin 1024, x0 (ix3 (0 : Fin 1) t h) * x2 (ix2 h j)) + xs (ix2 u j)) + x4 (ix1 j))
            (Ideal.ofBits .f32 0x00000000#32) * x5 (ix2 j k)) + x6 (ix1 k) := by
  unfold k0_pay2
  rw [shapeCast_abc_1abc_apply, RowsLayout.shapeCast_rc_abc_apply _ _ t u k (pairRow t u) rfl, addf_apply]
  refine congrArg₂ (· + ·) ?_ ?_
  · refine (PlainMatmul.apply dot_S1040x640_S640x1024_S1040x1024_1_0_0_1_n_n rfl rfl rfl rfl rfl rfl none _ _
      (pairRow t u) k).trans ?_
    refine Finset.sum_congr rfl fun j _ => ?_
    rw [truncf_apply, truncf_apply, RowsLayout.shapeCast_abc_rc_apply _ _ t u j (pairRow t u) rfl, maximumf_apply,
      broadcast_apply, addf_apply, addf_apply, RowsLayout.broadcastTo_a1c_abc_apply,
      RowsLayout.shapeCast_ab_a1b_apply, RowsLayout.broadcastTo_1bc_abc_apply, shapeCast_ab_1ab_apply,
      RowsLayout.broadcastTo_11c_abc_apply, RowsLayout.shapeCast_a_11a_apply]
    refine congrArg₂ (· * ·) (congrArg₂ max (congrArg₂ (· + ·) (congrArg₂ (· + ·) ?_ rfl) rfl) rfl) rfl
    refine (PlainMatmul.apply dot_S16x1024_S1024x640_S16x640_1_0_0_1_n_n rfl rfl rfl rfl rfl rfl none _ _ t j).trans ?_
    refine Finset.sum_congr rfl fun h _ => ?_
    rw [truncf_apply, truncf_apply, shapeCast_self, shapeCast_1ab_ab_apply]
  · exact (PlainMatmul.rowSpread_apply _ _ (pairRow t u) k).trans (shapeCast_a_1a_apply _ _ 0 k)

end Cert.KernelIdeal.Stored

end
-- ==== Proof.JointBlocks.lean ====
/-
  The blocks the body is given at a grid point, in terms of the argument arrays, at the ideal values.

  The grid has 8 * 16 points; point t works on batch entry t / 16 and on the tile t % 16 of sixteen encoder frames.
  Its block of f is the sixteen frames 16 (t % 16) .. 16 (t % 16) + 15 of that entry, its block of g the entry's
  sixty-five prediction steps, and the other five blocks are whole arrays: the first 1024 rows of W1 and its last 320
  rows (the two slices the program cuts before the call), b1, W2 and b2. The output block of point t covers the entries
  (t / 16, 16 (t % 16) + s, u, k) of the result. A block's coordinate on an axis is always the block index times the
  block's extent plus the coordinate inside the block.
-/
import proofs.«116999_j28862180229192_1_alg».proof.Proof.Gen.KernelIdeal.Frame
import proofs.«116999_j28862180229192_1_alg».proof.Proof.JointSpec
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.Joint

variable (m : (ℓ : Loc nD τ sig) → Buf (Elt Ideal) ℓ)

/-! ## The argument arrays and the blocks, by their literal shapes -/

abbrev fArr (c : Dev nD) : FVec Ideal S8x256x1024 .f32 := m ((c : Thread nD τ).loc main_arg0)
abbrev gArr (c : Dev nD) : FVec Ideal S8x65x320 .f32 := m ((c : Thread nD τ).loc main_arg1)
abbrev w1Arr (c : Dev nD) : FVec Ideal S1344x640 .f32 := m ((c : Thread nD τ).loc main_arg2)
abbrev b1Arr (c : Dev nD) : FVec Ideal S640 .f32 := m ((c : Thread nD τ).loc main_arg3)
abbrev w2Arr (c : Dev nD) : FVec Ideal S640x1024 .f32 := m ((c : Thread nD τ).loc main_arg4)
abbrev b2Arr (c : Dev nD) : FVec Ideal S1024 .f32 := m ((c : Thread nD τ).loc main_arg5)

abbrev fBlk (c : Dev nD) (t : Fin cfg0.N) : FVec Ideal S1x16x1024 .f32 := iblk m c 0 t
abbrev gBlk (c : Dev nD) (t : Fin cfg0.N) : FVec Ideal S1x65x320 .f32 := iblk m c 1 t
abbrev encBlk (c : Dev nD) (t : Fin cfg0.N) : FVec Ideal S1024x640 .f32 := iblk m c 2 t
abbrev predBlk (c : Dev nD) (t : Fin cfg0.N) : FVec Ideal S320x640 .f32 := iblk m c 3 t
abbrev b1Blk (c : Dev nD) (t : Fin cfg0.N) : FVec Ideal S640 .f32 := iblk m c 4 t
abbrev w2Blk (c : Dev nD) (t : Fin cfg0.N) : FVec Ideal S640x1024 .f32 := iblk m c 5 t
abbrev b2Blk (c : Dev nD) (t : Fin cfg0.N) : FVec Ideal S1024 .f32 := iblk m c 6 t

theorem N_eq : cfg0.N = 128 := N_0

/-- The batch entry a grid point works on. -/
abbrev batchOf (t : Fin cfg0.N) : Fin 8 := ⟨t.val / 16, by have := lt_of_lt_of_eq t.isLt N_eq; omega⟩

/-- The tile of sixteen encoder frames a grid point works on. -/
abbrev tileOf (t : Fin cfg0.N) : Fin 16 := ⟨t.val % 16, by omega⟩

/-- The printed index maps at a grid point, decided once over the 128 points. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 4) = t.val / 16 ∧ win0_7.index t (1 : Fin 4) = t.val % 16
    ∧ win0_7.index t (2 : Fin 4) = 0 ∧ win0_7.index t (3 : Fin 4) = 0 :=
  (by decide +kernel : ∀ t : Fin grid0.N, _)

/-! ## The two halves of W1, as the region finds them -/

theorem V_encHalf (c : Dev nD) :
    (V m c main_v0 : FVec Ideal S1024x640 .f32)
      = extractStridedSlice S1024x640 ![0, 0] (w1Arr m c) slices_S1344x640_S1024x640_0_0 := by
  dsimp only [V, hostOps0]; after_results

theorem V_predHalf (c : Dev nD) :
    (V m c main_v1 : FVec Ideal S320x640 .f32)
      = extractStridedSlice S320x640 ![1024, 0] (w1Arr m c) slices_S1344x640_S320x640_1024_0 := by
  dsimp only [V, hostOps0]; after_results

/-! ## The blocks read at an entry -/

/-- The block of f at point t: frame s of the tile is frame 16 (t % 16) + s of batch entry t / 16. -/
theorem fBlk_apply (c : Dev nD) (t : Fin cfg0.N) (s : Fin 16) (h : Fin 1024) :
    fBlk m c t (ix3 (0 : Fin 1) s h) = fArr m c (ix3 (batchOf t) (frameOf (tileOf t) s) h) := by
  show ((cfg0.win 0).blk t).view.read (Elt Ideal) (V m c (Pipeline.arrRef spec0 0)) (ix3 (0 : Fin 1) s h) = _
  rw [View.read_apply]
  show V m c main_arg0 (((cfg0.win 0).blk t).view.emb (ix3 (0 : Fin 1) s h)) = _
  rw [V_main_arg0]
  obtain ⟨e0, e1, e2, -⟩ := idx_facts t
  refine congrArg (m ((c : Thread nD τ).loc main_arg0)) (funext fun a => Fin.ext ?_)
  match a with
  | ⟨0, _⟩ => show win0_0.index t (0 : Fin 3) * 1 + 1 * 0 = t.val / 16; omega
  | ⟨1, _⟩ => show win0_0.index t (1 : Fin 3) * 16 + 1 * s.val = 16 * (t.val % 16) + s.val; omega
  | ⟨2, _⟩ => show win0_0.index t (2 : Fin 3) * 1024 + 1 * h.val = h.val; omega

/-- The block of g at point t: the sixty-five prediction steps of batch entry t / 16. -/
theorem gBlk_apply (c : Dev nD) (t : Fin cfg0.N) (u : Fin 65) (h : Fin 320) :
    gBlk m c t (ix3 (0 : Fin 1) u h) = gArr m c (ix3 (batchOf t) u h) := by
  show ((cfg0.win 1).blk t).view.read (Elt Ideal) (V m c (Pipeline.arrRef spec0 1)) (ix3 (0 : Fin 1) u h) = _
  rw [View.read_apply]
  show V m c main_arg1 (((cfg0.win 1).blk t).view.emb (ix3 (0 : Fin 1) u h)) = _
  rw [V_main_arg1]
  obtain ⟨-, -, -, e0, e1, e2, -⟩ := idx_facts t
  refine congrArg (m ((c : Thread nD τ).loc main_arg1)) (funext fun a => Fin.ext ?_)
  match a with
  | ⟨0, _⟩ => show win0_1.index t (0 : Fin 3) * 1 + 1 * 0 = t.val / 16; omega
  | ⟨1, _⟩ => show win0_1.index t (1 : Fin 3) * 65 + 1 * u.val = u.val; omega
  | ⟨2, _⟩ => show win0_1.index t (2 : Fin 3) * 320 + 1 * h.val = h.val; omega

/-- The encoder half of W1 at any point: its row h is row h of W1. -/
theorem encBlk_apply (c : Dev nD) (t : Fin cfg0.N) (h : Fin 1024) (j : Fin 640) :
    encBlk m c t (ix2 h j) = w1Arr m c (ix2 (encRow h) j) := by
  show ((cfg0.win 2).blk t).view.read (Elt Ideal) (V m c (Pipeline.arrRef spec0 2)) (ix2 h j) = _
  rw [View.read_apply]
  show V m c main_v0 (((cfg0.win 2).blk t).view.emb (ix2 h j)) = _
  rw [V_encHalf]
  obtain ⟨-, -, -, -, -, -, e0, e1, -⟩ := idx_facts t
  have hemb : ((cfg0.win 2).blk t).view.emb (ix2 h j) = ix2 h j := funext fun a => Fin.ext (by
    match a with
    | ⟨0, _⟩ => show win0_2.index t (0 : Fin 2) * 1024 + 1 * h.val = h.val; omega
    | ⟨1, _⟩ => show win0_2.index t (1 : Fin 2) * 640 + 1 * j.val = j.val; omega)
  rw [hemb]
  exact slice2_axis0_apply 0 (w1Arr m c) slices_S1344x640_S1024x640_0_0 h j (encRow h) (Nat.zero_add _).symm

/-- The prediction half of W1 at any point: its row h is row 1024 + h of W1. -/
theorem predBlk_apply (c : Dev nD) (t : Fin cfg0.N) (h : Fin 320) (j : Fin 640) :
    predBlk m c t (ix2 h j) = w1Arr m c (ix2 (predRow h) j) := by
  show ((cfg0.win 3).blk t).view.read (Elt Ideal) (V m c (Pipeline.arrRef spec0 3)) (ix2 h j) = _
  rw [View.read_apply]
  show V m c main_v1 (((cfg0.win 3).blk t).view.emb (ix2 h j)) = _
  rw [V_predHalf]
  obtain ⟨-, -, -, -, -, -, -, -, e0, e1, -⟩ := idx_facts t
  have hemb : ((cfg0.win 3).blk t).view.emb (ix2 h j) = ix2 h j := funext fun a => Fin.ext (by
    match a with
    | ⟨0, _⟩ => show win0_3.index t (0 : Fin 2) * 320 + 1 * h.val = h.val; omega
    | ⟨1, _⟩ => show win0_3.index t (1 : Fin 2) * 640 + 1 * j.val = j.val; omega)
  rw [hemb]
  exact slice2_axis0_apply 1024 (w1Arr m c) slices_S1344x640_S320x640_1024_0 h j (predRow h) rfl

/-- The hidden bias at any point is b1. -/
theorem b1Blk_apply (c : Dev nD) (t : Fin cfg0.N) (j : Fin 640) : b1Blk m c t (ix1 j) = b1Arr m c (ix1 j) := by
  show ((cfg0.win 4).blk t).view.read (Elt Ideal) (V m c (Pipeline.arrRef spec0 4)) (ix1 j) = _
  rw [View.read_apply]
  show V m c main_arg3 (((cfg0.win 4).blk t).view.emb (ix1 j)) = _
  rw [V_main_arg3]
  obtain ⟨-, -, -, -, -, -, -, -, -, -, e0, -⟩ := idx_facts t
  refine congrArg (m ((c : Thread nD τ).loc main_arg3)) (funext fun a => Fin.ext ?_)
  match a with
  | ⟨0, _⟩ => show win0_4.index t (0 : Fin 1) * 640 + 1 * j.val = j.val; omega

/-- The output weight at any point is W2. -/
theorem w2Blk_apply (c : Dev nD) (t : Fin cfg0.N) (j : Fin 640) (k : Fin 1024) :
    w2Blk m c t (ix2 j k) = w2Arr m c (ix2 j k) := by
  show ((cfg0.win 5).blk t).view.read (Elt Ideal) (V m c (Pipeline.arrRef spec0 5)) (ix2 j k) = _
  rw [View.read_apply]
  show V m c main_arg4 (((cfg0.win 5).blk t).view.emb (ix2 j k)) = _
  rw [V_main_arg4]
  obtain ⟨-, -, -, -, -, -, -, -, -, -, -, e0, e1, -⟩ := idx_facts t
  refine congrArg (m ((c : Thread nD τ).loc main_arg4)) (funext fun a => Fin.ext ?_)
  match a with
  | ⟨0, _⟩ => show win0_5.index t (0 : Fin 2) * 640 + 1 * j.val = j.val; omega
  | ⟨1, _⟩ => show win0_5.index t (1 : Fin 2) * 1024 + 1 * k.val = k.val; omega

/-- The output bias at any point is b2. -/
theorem b2Blk_apply (c : Dev nD) (t : Fin cfg0.N) (k : Fin 1024) : b2Blk m c t (ix1 k) = b2Arr m c (ix1 k) := by
  show ((cfg0.win 6).blk t).view.read (Elt Ideal) (V m c (Pipeline.arrRef spec0 6)) (ix1 k) = _
  rw [View.read_apply]
  show V m c main_arg5 (((cfg0.win 6).blk t).view.emb (ix1 k)) = _
  rw [V_main_arg5]
  obtain ⟨-, -, -, -, -, -, -, -, -, -, -, -, -, e0, -⟩ := idx_facts t
  refine congrArg (m ((c : Thread nD τ).loc main_arg5)) (funext fun a => Fin.ext ?_)
  match a with
  | ⟨0, _⟩ => show win0_6.index t (0 : Fin 1) * 1024 + 1 * k.val = k.val; omega

/-- Where the output block of point t sits in the result: its entry (0, s, u, k) is the result's entry
    (t / 16, 16 (t % 16) + s, u, k). -/
theorem outBlk_emb (t : Fin cfg0.N) (s : Fin 16) (u : Fin 65) (k : Fin 1024) :
    ((cfg0.win 7).blk t).view.emb (ix4 (0 : Fin 1) s u k) = ix4 (batchOf t) (frameOf (tileOf t) s) u k := by
  obtain ⟨-, -, -, -, -, -, -, -, -, -, -, -, -, -, e0, e1, e2, e3⟩ := idx_facts t
  refine funext fun a => Fin.ext ?_
  match a with
  | ⟨0, _⟩ => show win0_7.index t (0 : Fin 4) * 1 + 1 * 0 = t.val / 16; omega
  | ⟨1, _⟩ => show win0_7.index t (1 : Fin 4) * 16 + 1 * s.val = 16 * (t.val % 16) + s.val; omega
  | ⟨2, _⟩ => show win0_7.index t (2 : Fin 4) * 65 + 1 * u.val = u.val; omega
  | ⟨3, _⟩ => show win0_7.index t (3 : Fin 4) * 1024 + 1 * k.val = k.val; omega

end Cert.KernelIdeal.Blocks

end
-- ==== Proof.JointKernel.lean ====
/-
  The kernel computes the joint network: after its run the result array holds the specification's logits.

  The body keeps the prediction projection of the current batch entry in a scratch across the sixteen tiles of the
  entry. By induction over the grid points, after point n the scratch holds the projection of entry n / 16: a point
  with n % 16 = 0 stores it afresh from the entry's block of g and the prediction half of W1, any other point leaves
  the scratch alone, and n / 16 = (n - 1) / 16 there. So at every point the stored output block is computed from the
  projection of the point's own entry, and with the blocks read as parts of the arguments its entry (s, u, k) is the
  logit (t / 16, 16 (t % 16) + s, u, k). The 128 output blocks tile the result: the entry (b, r, u, k) lies in the
  block of point 16 b + r / 16. Hence the result array is the logits of the arguments.
-/
import proofs.«116999_j28862180229192_1_alg».proof.Proof.Gen.KernelIdeal.Value
import proofs.«116999_j28862180229192_1_alg».proof.Proof.JointSpec
import proofs.«116999_j28862180229192_1_alg».proof.Proof.JointPieces
import proofs.«116999_j28862180229192_1_alg».proof.Proof.JointStored
import proofs.«116999_j28862180229192_1_alg».proof.Proof.JointBlocks
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.Joint

variable (m : (ℓ : Loc nD τ sig) → Buf (Elt Ideal) ℓ) (ρ : Dev nD → PrngReg)

/-! ## The scratch across the points -/

/-- The prediction projection of batch entry b, as a [65, 640] array. -/
def predOf (c : Dev nD) (b : Fin 8) : FVec Ideal S65x640 .f32 :=
  fun y => Joint.pred (gArr m c) (w1Arr m c) b (y 0) (y 1)

/-- What a point stores in the scratch from its blocks is the projection of the point's batch entry. -/
theorem scratchStored_eq (c : Dev nD) (t : Fin cfg0.N) :
    k0_pay1 (F := Ideal) (gBlk m c t) (predBlk m c t) = predOf m c (batchOf t) := by
  funext y
  obtain ⟨u, j, rfl⟩ : ∃ (u : Fin 65) (j : Fin 640), y = ix2 u j := ⟨y 0, y 1, eq_ix2 y⟩
  refine (Stored.scratchStored_apply (gBlk m c t) (predBlk m c t) u j).trans ?_
  show _ = Joint.pred (gArr m c) (w1Arr m c) (batchOf t) u j
  unfold Joint.pred
  exact Finset.sum_congr rfl fun h _ => congrArg₂ (· * ·) (gBlk_apply m c t u h) (predBlk_apply m c t h j)

/-- After a point at the first tile of a batch entry the scratch holds that entry's projection. -/
theorem scratch_first (c : Dev nD) (t : Fin cfg0.N) (h0 : t.val % 16 = 0) :
    (outsAt0 m c t.val t.isLt).2 = predOf m c (batchOf t) := by
  rw [outsAt0_A m c t h0]
  dsimp only
  exact (Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)).trans (scratchStored_eq m c t)

/-- After any point n the scratch holds the projection of batch entry n / 16. -/
theorem scratch_eq (c : Dev nD) : ∀ (n : ℕ) (hn : n < cfg0.N), (outsAt0 m c n hn).2 = predOf m c (batchOf ⟨n, hn⟩)
  | 0, hn => scratch_first m c ⟨0, hn⟩ rfl
  | n + 1, hn => by
    by_cases h0 : (n + 1) % 16 = 0
    · exact scratch_first m c ⟨n + 1, hn⟩ h0
    · rw [outsAt0_B m c ⟨n + 1, hn⟩ h0]
      dsimp only
      unfold sout0_B_0
      show (outsAt0 m c n _).2 = _
      rw [scratch_eq c n (Nat.lt_of_succ_lt hn)]
      refine congrArg (predOf m c) (Fin.ext ?_)
      show n / 16 = (n + 1) / 16
      omega

/-! ## A tile's stored block -/

/-- The block a point stores, computed from the projection of the point's batch entry, is the logits of the point's
    sixteen frames. -/
theorem blockStored_eq (c : Dev nD) (t : Fin cfg0.N) (xs : FVec Ideal S65x640 .f32) (hxs : xs = predOf m c (batchOf t))
    (s : Fin 16) (u : Fin 65) (k : Fin 1024) :
    k0_pay2 (F := Ideal) (fBlk m c t) (encBlk m c t) xs (b1Blk m c t) (w2Blk m c t) (b2Blk m c t) (ix4 (0 : Fin 1) s u k)
      = Joint.logitAt (fArr m c) (gArr m c) (w1Arr m c) (b1Arr m c) (w2Arr m c) (b2Arr m c)
          (batchOf t) (frameOf (tileOf t) s) u k := by
  subst hxs
  refine (Stored.blockStored_apply (fBlk m c t) (encBlk m c t) (predOf m c (batchOf t)) (b1Blk m c t) (w2Blk m c t)
    (b2Blk m c t) s u k).trans ?_
  unfold Joint.logitAt Joint.hidden Joint.enc
  exact congrArg₂ (· + ·) (Finset.sum_congr rfl fun j _ => congrArg₂ (· * ·) (congrArg₂ max (congrArg₂ (· + ·)
    (congrArg₂ (· + ·) (Finset.sum_congr rfl fun h _ => congrArg₂ (· * ·) (fBlk_apply m c t s h) (encBlk_apply m c t h j))
      rfl) (b1Blk_apply m c t j)) rfl) (w2Blk_apply m c t j k)) (b2Blk_apply m c t k)

/-! ## From the blocks to the array -/

/-- The logits of the arguments, as the contents of the result array. -/
abbrev result (c : Dev nD) : FVec Ideal S8x256x65x1024 .f32 :=
  Joint.logits (fArr m c) (gArr m c) (w1Arr m c) (b1Arr m c) (w2Arr m c) (b2Arr m c)

/-- A stored block computed from the projection of the point's entry is the point's block of the logits. -/
theorem cut_eq (c : Dev nD) (t : Fin cfg0.N) (xs : FVec Ideal S65x640 .f32) (hxs : xs = predOf m c (batchOf t)) :
    (cfg0.win 7).cut (grid0.coords t)
        (k0_pay2 (F := Ideal) (fBlk m c t) (encBlk m c t) xs (b1Blk m c t) (w2Blk m c t) (b2Blk m c t))
      = ((cfg0.win 7).blk t).view.read (Elt Ideal) (result m c) := by
  funext y
  show k0_pay2 (F := Ideal) (fBlk m c t) (encBlk m c t) xs (b1Blk m c t) (w2Blk m c t) (b2Blk m c t) y
    = result m c (((cfg0.win 7).blk t).view.emb y)
  obtain ⟨z, s, u, k, rfl⟩ : ∃ (z : Fin 1) (s : Fin 16) (u : Fin 65) (k : Fin 1024), y = ix4 z s u k :=
    ⟨y 0, y 1, y 2, y 3, eq_ix4 y⟩
  obtain rfl : z = 0 := Subsingleton.elim _ _
  rw [outBlk_emb]
  exact blockStored_eq m c t xs hxs s u k

/-- What point t writes back is block t of the logits. -/
theorem flushed_eq (c : Dev nD) (t : Fin cfg0.N) :
    (dats m 0 c).flushed 7 t = ((cfg0.win 7).blk t).view.read (Elt Ideal) (result m c) := by
  by_cases h0 : t.val % 16 = 0
  · rw [Value.flushed7_A m c t h0,
      Pieces.block_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)]
    exact cut_eq m c t _ (scratchStored_eq m c t)
  · rw [Value.flushed7_B m c t h0,
      Pieces.block_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)).2]
    refine cut_eq m c t _ ((scratch_eq m c (t.val - 1) _).trans (congrArg (predOf m c) (Fin.ext ?_)))
    show (t.val - 1) / 16 = t.val / 16
    omega

/-- An entry of the result is in point t's block iff each coordinate is in the block's range on its axis. -/
theorem mem_blk (t : Fin cfg0.N) (i : S8x256x65x1024.Idx) :
    i ∈ ((cfg0.win 7).blk t).view.set ↔ ∀ a : Fin 4, win0_7.index t a * S1x16x65x1024.size a ≤ (i a).val
      ∧ (i a).val < win0_7.index t a * S1x16x65x1024.size a + S1x16x65x1024.size a := by
  show i ∈ ((View.whole main_v2).slice (win0_7.rect t)).set ↔ _
  rw [View.set_slice_whole, Rect.mem_set_unit]
  exact Iff.rfl

/-- Every entry (b, r, u, k) of the result lies in the block of point 16 b + r / 16. -/
theorem cover (i : S8x256x65x1024.Idx) :
    ∃ t : Fin cfg0.N, (cfg0.win 7).flush t = true ∧ i ∈ ((cfg0.win 7).blk t).view.set := by
  have h0 : (i 0).val < 8 := (i 0).isLt
  have h1 : (i 1).val < 256 := (i 1).isLt
  have h2 : (i 2).val < 65 := (i 2).isLt
  have h3 : (i 3).val < 1024 := (i 3).isLt
  obtain ⟨t, ht⟩ : ∃ t : Fin cfg0.N, t.val = 16 * (i 0).val + (i 1).val / 16 :=
    ⟨⟨16 * (i 0).val + (i 1).val / 16, by rw [N_eq]; omega⟩, rfl⟩
  refine ⟨t, flush0_7 t, ?_⟩
  rw [mem_blk]
  obtain ⟨-, -, -, -, -, -, -, -, -, -, -, -, -, -, e0, e1, e2, e3⟩ := idx_facts t
  intro a
  match a with
  | ⟨0, _⟩ =>
    show win0_7.index t (0 : Fin 4) * 1 ≤ (i 0).val ∧ (i 0).val < win0_7.index t (0 : Fin 4) * 1 + 1
    omega
  | ⟨1, _⟩ =>
    show win0_7.index t (1 : Fin 4) * 16 ≤ (i 1).val ∧ (i 1).val < win0_7.index t (1 : Fin 4) * 16 + 16
    omega
  | ⟨2, _⟩ =>
    show win0_7.index t (2 : Fin 4) * 65 ≤ (i 2).val ∧ (i 2).val < win0_7.index t (2 : Fin 4) * 65 + 65
    omega
  | ⟨3, _⟩ =>
    show win0_7.index t (3 : Fin 4) * 1024 ≤ (i 3).val ∧ (i 3).val < win0_7.index t (3 : Fin 4) * 1024 + 1024
    omega

/-- The result array after the run: the logits of the arguments. -/
theorem final (c : Dev nD) : (dats m 0 c).arrAt 7 cfg0.N = result m c :=
  (dats m 0 c).arrAt_eq_of_cover 7 (result m c) (fun t _ => flushed_eq m c t) cover

/-- The kernel's run: every weakly fair execution ends with the result array at the logits of the arguments and the
    arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.JointReference.lean ====
/-
  The reference computes the joint network: its last stage, read entry by entry, is the specification.

  The reference projects f and g with the two row halves of W1, spreads the first projection over the prediction steps and
  the second over the encoder frames, adds them, then the bias, cuts at zero from below, contracts the hidden axis with W2
  and adds the output bias. Read at the entry (b, t, u, k) each stage reads its operands at one entry, and the composed
  index functions are the coordinates themselves: the first projection is read at (b, t, j), the second at (b, u, j), the
  slices of W1 at rows h and 1024 + h.
-/
import proofs.«116999_j28862180229192_1_alg».proof.Proof.Gen.ReferenceIdeal.Read
import proofs.«116999_j28862180229192_1_alg».proof.Proof.JointSpec

noncomputable section

open scoped BigOperators
open Idealize.ShloMosaic Idealize.ShloMosaic.ValueIdx

namespace Cert.ReferenceIdeal.Whole

open Cert.ReferenceIdeal Cert.ReferenceIdeal.Read Cert.Joint

/-- The reference's result is the joint network's logits of its six arguments. -/
theorem val_eq_logits (x0 : (⟨S8x256x1024, .f32⟩ : BufTy).Contents (Elt Ideal)) (x1 : (⟨S8x65x320, .f32⟩ : BufTy).Contents (Elt Ideal)) (x2 : (⟨S1344x640, .f32⟩ : BufTy).Contents (Elt Ideal))
    (x3 : (⟨S640, .f32⟩ : BufTy).Contents (Elt Ideal)) (x4 : (⟨S640x1024, .f32⟩ : BufTy).Contents (Elt Ideal)) (x5 : (⟨S1024, .f32⟩ : BufTy).Contents (Elt Ideal)) :
    val_main_v16 (F := Ideal) x0 x1 x2 x3 x4 x5 = logits x0 x1 x2 x3 x4 x5 := by
  funext i
  obtain ⟨b, t, u, k, rfl⟩ : ∃ (b : Fin 8) (t : Fin 256) (u : Fin 65) (k : Fin 1024), i = ix4 b t u k :=
    ⟨i 0, i 1, i 2, i 3, eq_ix4 i⟩
  rw [logits_apply, val_main_v16_apply, val_main_v13_apply, val_main_v15_apply, val_main_v14_apply]
  unfold Joint.logitAt
  refine congrArg₂ (· + ·) (Finset.sum_congr rfl fun j _ => congrArg₂ (· * ·) ?_ (congrArg x4 ?_)) (congrArg x5 ?_)
  · rw [val_main_v12_apply, val_main_v11_apply, val_main_v8_apply, val_main_v6_apply, val_main_v4_apply,
      val_main_v2_apply, val_main_v7_apply, val_main_v5_apply, val_main_v3_apply, val_main_v10_apply,
      val_main_v9_apply, val_main_call0_v0_apply, val_main_call0_cst_apply]
    unfold Joint.hidden Joint.enc Joint.pred
    refine congrArg₂ max (congrArg₂ (· + ·) (congrArg₂ (· + ·)
      (Finset.sum_congr rfl fun h _ => congrArg₂ (· * ·) (congrArg x0 ?_) ?_)
      (Finset.sum_congr rfl fun h _ => congrArg₂ (· * ·) (congrArg x1 ?_) ?_)) (congrArg x3 ?_)) rfl
    · exact funext fun a => Fin.ext (by match a with | ⟨0, _⟩ => rfl | ⟨1, _⟩ => rfl | ⟨2, _⟩ => rfl)
    · rw [val_main_v0_apply]
      exact congrArg x2 (funext fun a => Fin.ext (by match a with | ⟨0, _⟩ => rfl | ⟨1, _⟩ => rfl))
    · exact funext fun a => Fin.ext (by match a with | ⟨0, _⟩ => rfl | ⟨1, _⟩ => rfl | ⟨2, _⟩ => rfl)
    · rw [val_main_v1_apply]
      exact congrArg x2 (funext fun a => Fin.ext (by match a with | ⟨0, _⟩ => rfl | ⟨1, _⟩ => rfl))
    · exact funext fun a => Fin.ext (by match a with | ⟨0, _⟩ => rfl)
  · exact funext fun a => Fin.ext (by match a with | ⟨0, _⟩ => rfl | ⟨1, _⟩ => rfl)
  · exact funext fun a => Fin.ext (by match a with | ⟨0, _⟩ => rfl)

end Cert.ReferenceIdeal.Whole

end
-- ==== Proof.lean ====
/-
  A transducer's joint network as one fused kernel, against the plain jnp program, over the extended reals.

  Both programs return, for a batch entry b, an encoder frame t, a prediction step u and a vocabulary entry k,

      (sum over j of relu ((f(b,t,:) . W1[:1024, j] + g(b,u,:) . W1[1024:, j]) + b1(j)) * W2(j, k)) + b2(k).

  The reference computes it array by array: the two projections, their sum spread over (t, u), the bias, the cut at
  zero, the contraction with W2, the output bias. The kernel walks a grid of 8 batch entries by 16 tiles of sixteen
  frames; at the first tile of an entry it keeps the prediction projection of that entry in a scratch, and at every tile
  it computes the tile's [16, 65, 1024] logits from that scratch, laying the (frame, step) pairs out as the rows of one
  [1040, 640] by [640, 1024] product. At the ideal values a change of float format is the identity and a matrix product
  into zero is the plain sum, so no rounding separates the two; the two sides add and multiply the same extended reals
  in the same order, and no law that needs finiteness is used.

  The kernel's run (the scratch carried across the points, the blocks read as parts of the arguments, the 128 output
  blocks tiling the result) ends with the result array at the specification's logits; the reference's generated run,
  read stage by stage, ends at the same function of arguments that agree.
-/
import proofs.«116999_j28862180229192_1_alg».proof.Defs
import proofs.«116999_j28862180229192_1_alg».proof.Proof.Gen.Kernel
import proofs.«116999_j28862180229192_1_alg».proof.Proof.Gen.Kernel.Skeleton
import proofs.«116999_j28862180229192_1_alg».proof.Proof.Gen.Kernel.Launch
import proofs.«116999_j28862180229192_1_alg».proof.Proof.Gen.Kernel.Points
import proofs.«116999_j28862180229192_1_alg».proof.Proof.Gen.Kernel.Frame
import proofs.«116999_j28862180229192_1_alg».proof.Proof.Gen.KernelIdeal
import proofs.«116999_j28862180229192_1_alg».proof.Proof.Gen.KernelIdeal.Skeleton
import proofs.«116999_j28862180229192_1_alg».proof.Proof.Gen.KernelIdeal.Launch
import proofs.«116999_j28862180229192_1_alg».proof.Proof.Gen.KernelIdeal.Points
import proofs.«116999_j28862180229192_1_alg».proof.Proof.Gen.KernelIdeal.Frame
import proofs.«116999_j28862180229192_1_alg».proof.Proof.Gen.ReferenceIdeal
import proofs.«116999_j28862180229192_1_alg».proof.Proof.Gen.Pre_finite_inputs
import proofs.«116999_j28862180229192_1_alg».proof.Proof.Gen.KernelIdeal.Value
import proofs.«116999_j28862180229192_1_alg».proof.Proof.Gen.ReferenceIdeal.Run
import proofs.«116999_j28862180229192_1_alg».proof.Proof.Gen.ReferenceIdeal.Read
import proofs.«116999_j28862180229192_1_alg».proof.Proof.JointKernel
import proofs.«116999_j28862180229192_1_alg».proof.Proof.JointReference
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the result array at the joint network's
    logits of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Whole.val_eq_logits, (hagree c).1,
    (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
